-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S2x800000 32) (main_v13 : IVec S_ 1) (main_v15 : IVec S800000 32) (main_v16 : IVec S800000 32) : IVec S_ 1 :=
  let main_v17 : IVec S800000 1 := cmpi .sge main_v15 main_v16
  let main_c_5 : IVec S_ 1 := constantI S_ 1 1#1
  let main_v18 : IVec S_ 1 := (fun x v => Host.reduce IntOp.andi x v reducesTo_S800000_S_d0 h_S_) main_v17 main_c_5
  let main_v19 : IVec S_ 1 := andi main_v13 main_v18
  let main_v20 : IVec S1x800000 32 := (extractStridedSlice S1x800000 ![0, 0] · slices_S2x800000_S1x800000_0_0) main_arg3
  let main_v21 : IVec S800000 32 := shapeCast S800000 main_v20 shapeCasts_S1x800000_S800000
  let main_c_6 : IVec S_ 32 := constantI S_ 32 50000#32
  let main_v22 : IVec S800000 32 := broadcastInDim S800000 ![] bcast_S_S800000 main_c_6
  let main_v23 : IVec S800000 1 := cmpi .slt main_v21 main_v22
  let main_c_7 : IVec S_ 1 := constantI S_ 1 1#1
  let main_v24 : IVec S_ 1 := (fun x v => Host.reduce IntOp.andi x v reducesTo_S800000_S_d0 h_S_) main_v23 main_c_7
  let main_v25 : IVec S_ 1 := andi main_v19 main_v24
  main_v25

def fn {F : FTy → Type} [FloatOps F] (main_arg0 : FVec F S50000x128 .f32) (main_arg1 : FVec F S128x128 .f32) (main_arg2 : FVec F S128x128 .f32) (main_arg3 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1x800000 32 := (extractStridedSlice S1x800000 ![0, 0] · slices_S2x800000_S1x800000_0_0) main_arg3
  let main_v15 : IVec S800000 32 := shapeCast S800000 main_v14 shapeCasts_S1x800000_S800000
  let main_c_4 : IVec S_ 32 := constantI S_ 32 4294917296#32
  let main_v16 : IVec S800000 32 := broadcastInDim S800000 ![] bcast_S_S800000 main_c_4
  fn_part1 (F := F) main_arg3 main_v13 main_v15 main_v16
-- ==== Kernel.lean ====
abbrev S50000x128 : Shape := ⟨2, ![50000, 128]⟩
abbrev S128x128 : Shape := ⟨2, ![128, 128]⟩
abbrev S2x800000 : Shape := ⟨2, ![2, 800000]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩

abbrev nBuf : Space → Nat
  | .hbm => 37
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S1, .i32⟩
  | .hbm, ⟨18, _⟩ => ⟨S_, .i32⟩
  | .hbm, ⟨19, _⟩ => ⟨S800000x1, .i32⟩
  | .hbm, ⟨20, _⟩ => ⟨S800000x1, .i1⟩
  | .hbm, ⟨21, _⟩ => ⟨S1x1, .i32⟩
  | .hbm, ⟨22, _⟩ => ⟨S800000x1, .i32⟩
  | .hbm, ⟨23, _⟩ => ⟨S800000x1, .i1⟩
  | .hbm, ⟨24, _⟩ => ⟨S800000x1, .i1⟩
  | .hbm, ⟨25, _⟩ => ⟨S_, .i1⟩
  | .hbm, ⟨26, _⟩ => ⟨S800000, .i1⟩
  | .hbm, ⟨27, _⟩ => ⟨S800000x128, .f32⟩
  | .hbm, ⟨28, _⟩ => ⟨S800000x128, .i1⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Pre.lean ====
/-
  The precondition, read back: when it holds, every source word — row 0 of the edge array, as the programs
  themselves cut it out (a slice of that row, reshaped to a vector) — lies in [-50000, 50000) read signed.

  The printed predicate is a conjunction of five "all" tests; the last two are "source ≥ -50000" and
  "source < 50000", each an and-reduction of a word comparison over the 800000 edges. A conjunction that is 1 has every
  conjunct 1, an and-reduction that is 1 met only 1s, and a signed comparison that is 1 says its inequality.
-/
import proofs.«411250_j36112085025451_1_alg».proof.Pre_finite_inputs
import Idealize.ShloMosaic.Lib.ReduceAll
import Idealize.ShloMosaic.Lib.StableHlo.Predicate
import Idealize.ShloMosaic.Lib.ValueIdx

noncomputable section

namespace Cert.PreRead

open Idealize.ShloMosaic Idealize.ShloMosaic.ValueIdx Cert.Pre_finite_inputs Cert.Pre_finite_inputs.Facts

variable {F : FTy → Type} [FloatOps F] [hP : Cert.Pre_finite_inputs.Facts]

instance : Subsingleton S_.Idx := ⟨fun a b => funext fun d => d.elim0⟩

/-- The source words as the programs cut them out of the edge array: row 0, as a vector. -/
abbrev src (hs : S2x800000.Slices ![0, 0] S1x800000) (hc : S1x800000.ShapeCasts S800000) (edges : IVec S2x800000 32) :
    IVec S800000 32 :=
  shapeCast S800000 (extractStridedSlice S1x800000 ![0, 0] edges hs) hc

/-- Under the precondition every source word lies in [-50000, 50000). -/
theorem src_range (a0 : FVec F S50000x128 .f32) (a1 a2 : FVec F S128x128 .f32) (edges : IVec S2x800000 32)
    (h : Cert.Pre_finite_inputs.fn (F := F) a0 a1 a2 edges = fun _ => 1#1)
    (hs : S2x800000.Slices ![0, 0] S1x800000) (hc : S1x800000.ShapeCasts S800000) (e : Fin 800000) :
    -(50000#32 : BitVec 32).toInt ≤ (src hs hc edges (ix1 e)).toInt
      ∧ (src hs hc edges (ix1 e)).toInt < (50000#32 : BitVec 32).toInt := by
  have h0 := congrFun h ValueIdx.ix0
  dsimp only [Cert.Pre_finite_inputs.fn, Cert.Pre_finite_inputs.fn_part1] at h0
  obtain ⟨h1, hlt⟩ := IntOp.andi_eq_one.1 h0
  obtain ⟨-, hge⟩ := IntOp.andi_eq_one.1 h1
  have hge' := Host.reduce_andi_all _ _ _ _ _ hge (ix1 e)
  have hlt' := Host.reduce_andi_all _ _ _ _ _ hlt (ix1 e)
  have g1 : (4294917296#32 : BitVec 32).toInt ≤ (src hs hc edges (ix1 e)).toInt :=
    of_decide_eq_true ((StableHlo.Predicate.ofBool_eq_one_iff _).1 hge')
  have g2 : (src hs hc edges (ix1 e)).toInt < (50000#32 : BitVec 32).toInt :=
    of_decide_eq_true ((StableHlo.Predicate.ofBool_eq_one_iff _).1 hlt')
  have c1 : (4294917296#32 : BitVec 32).toInt = -50000 := by decide
  have c2 : (50000#32 : BitVec 32).toInt = 50000 := by decide
  rw [c1] at g1
  rw [c2] at g2 ⊢
  exact ⟨g1, g2⟩

end Cert.PreRead

end
-- ==== Proof.Between.lean ====
/-
  The program between and around its two pallas_calls, read as values (any float instance).

  Before the first call the host cuts the edge array into its two rows: the source words (row 0) and the destination
  words (row 1), each a vector of 800000 words. Between the calls it takes, for every edge, the row of the first call's
  output at the edge's source word — the word normalised (a negative word has 50000 added), tested against
  0 ≤ word ≤ 49999, the row replaced by a fill where the test fails — and adds the 800000 rows into a zero
  50000 × 128 array at the rows the destination words name (`neigh`). Neither stretch writes an argument array, so
  each call finds the arguments as launched.
-/
import proofs.«411250_j36112085025451_1_alg».proof.Proof.Gen.KernelIdeal.Frame
import Idealize.ShloMosaic.Lib.StableHlo.Run

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

variable {F : FTy → Type} [FloatOps F]

/-- Row 0 of the edge array as a vector: the source words. -/
def srcWords (edges : IVec S2x800000 32) : IVec S800000 32 :=
  shapeCast S800000 (extractStridedSlice S1x800000 ![0, 0] edges slices_S2x800000_S1x800000_0_0) shapeCasts_S1x800000_S800000

/-- Row 1 of the edge array as a vector: the destination words. -/
def dstWords (edges : IVec S2x800000 32) : IVec S800000 32 :=
  shapeCast S800000 (extractStridedSlice S1x800000 ![1, 0] edges slices_S2x800000_S1x800000_1_0) shapeCasts_S1x800000_S800000

/-- The normalised source words as a column: a negative word has the extent 50000 added. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows the take keeps: the gathered row where the normalised word passes 0 ≤ word ≤ 49999, a fill elsewhere. -/
def takenRows (xm : FVec F S50000x128 .f32) (s : IVec S800000 32) : FVec F S800000x128 .f32 :=
  select (broadcastInDim S800000x128 ![0] bcast_S800000_S800000x128_0
      (Host.reduce IntOp.andi
        (andi (cmpi .sge (wrapCol s) (broadcastInDim S800000x1 ![] bcast_S_S800000x1 (constantI S_ 32 0#32)))
          (cmpi .sle (wrapCol s) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 xm (wrapCol s))
    (broadcastInDim S800000x128 ![] bcast_S_S800000x128 (constant S_ .f32 0x7FC00000#32))

/-- Rows added into a zero array at the rows the destination words name. -/
def sumInto (rows : FVec F S800000x128 .f32) (d : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) rows

/-- The neighbour sums: the taken rows of `xm` summed into their destinations. -/
def neigh (xm : FVec F S50000x128 .f32) (s d : IVec S800000 32) : FVec F S50000x128 .f32 :=
  sumInto (takenRows xm s) d

variable (m : (ℓ : Loc nD τ sig) → Buf (Elt F) ℓ) (ρ : Dev nD → PrngReg)

/-! ## Before the first call -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_v1 (c : Dev nD) : V1 m ρ c main_v1 = srcWords (m ((c : Thread nD τ).loc main_arg3)) := by
  show StableHlo.after hostOps0 (W0 m ρ c) (Proc.devRef .tc main_v1) = _
  after_results
  rfl

theorem V1_v3 (c : Dev nD) : V1 m ρ c main_v3 = dstWords (m ((c : Thread nD τ).loc main_arg3)) := by
  show StableHlo.after hostOps0 (W0 m ρ c) (Proc.devRef .tc main_v3) = _
  after_results
  rfl

/-! ## After the first call -/

theorem V2_v4 (c : Dev nD) : V2 m ρ c main_v4 = (dat0 (V1 m ρ) c).arrAt 2 cfg0.N := W2_arr m ρ c 2

theorem V2_v1 (c : Dev nD) : V2 m ρ c main_v1 = srcWords (m ((c : Thread nD τ).loc main_arg3)) :=
  (W2_of_ne m ρ c main_v1 (by decide)).trans (V1_v1 m ρ c)

theorem V2_v3 (c : Dev nD) : V2 m ρ c main_v3 = dstWords (m ((c : Thread nD τ).loc main_arg3)) :=
  (W2_of_ne m ρ c main_v3 (by decide)).trans (V1_v3 m ρ c)

/-! ## Entering the second call -/

/-- The buffers between the two host stretches of the middle, read at the TensorCore's references. -/
abbrev V3 : (c : Dev nD) → (b : Ref sig .tc) → Buf (Elt F) ((c : Thread nD τ).loc b) := fun c b => W3 m ρ c b

set_option maxHeartbeats 2000000 in
/-- The take's stretch leaves the taken rows of the first call's output. -/
theorem V3_v5 (c : Dev nD) : V3 m ρ c main_v5 = takenRows (V2 m ρ c main_v4) (V2 m ρ c main_v1) := by
  show StableHlo.after hostOps1 (W2 m ρ c) (Proc.devRef .tc main_v5)
    = takenRows (W2 m ρ c (Proc.devRef .tc main_v4)) (W2 m ρ c (Proc.devRef .tc main_v1))
  generalize W2 m ρ c = X
  after_results
  -- each buffer's contents pass through a change of type along an equation that is `rfl`: the identity
  simp only [cast_eq]
  rfl

/-- The take's stretch does not write the destination words. -/
theorem V3_v3 (c : Dev nD) : V3 m ρ c main_v3 = V2 m ρ c main_v3 :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The last stretch before the second call sums the rows it finds into their destinations. -/
theorem V4_v8_of_V3 (c : Dev nD) : V4 m ρ c main_v8 = sumInto (V3 m ρ c main_v5) (V3 m ρ c main_v3) := by
  show StableHlo.after hostOps1_1 (W3 m ρ c) (Proc.devRef .tc main_v8)
    = sumInto (W3 m ρ c (Proc.devRef .tc main_v5)) (W3 m ρ c (Proc.devRef .tc main_v3))
  generalize W3 m ρ c = X
  after_results
  rfl

theorem V4_v8 (c : Dev nD) :
    V4 m ρ c main_v8 = neigh (V2 m ρ c main_v4) (V2 m ρ c main_v1) (V2 m ρ c main_v3) := by
  rw [V4_v8_of_V3, V3_v5, V3_v3]
  rfl

theorem V4_arg0 (c : Dev nD) : V4 m ρ c main_arg0 = m ((c : Thread nD τ).loc main_arg0) :=
  (((W5_arr m ρ c 0).trans (((dat1 (V4 m ρ) c).arrAt_in 0 rfl _).trans (A_eq1 (V4 m ρ) c 0))).symm).trans (W5_main_arg0 m ρ c)

theorem V4_arg1 (c : Dev nD) : V4 m ρ c main_arg1 = m ((c : Thread nD τ).loc main_arg1) :=
  (((W5_arr m ρ c 1).trans (((dat1 (V4 m ρ) c).arrAt_in 1 rfl _).trans (A_eq1 (V4 m ρ) c 1))).symm).trans (W5_main_arg1 m ρ c)

/-! ## After the second call -/

theorem W5_v9 (c : Dev nD) : W5 m ρ c (Proc.devRef .tc main_v9) = (dat1 (V4 m ρ) c).arrAt 3 cfg1.N := W5_arr m ρ c 3

end Cert.KernelIdeal.Between

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.RegionZero.lean ====
/-
  The first pallas_call, read as a value at the ideal instance: its output array ends holding the matrix product of
  the region's first array (50000 × 128) with its second (128 × 128).

  The grid has ten points. Point t loads rows [5000·t, 5000·t + 5000) of the left array and the whole right array,
  multiplies them on the matrix unit into a zero accumulator (the two roundings to bf16 are the identity on the
  extended reals), and writes the 5000 × 128 product back as rows [5000·t, 5000·t + 5000) of the output. Entry (r, q) of
  that block is ∑ₖ left[5000·t + r, k] · right[k, q], which is entry (5000·t + r, q) of the whole product; the ten row
  blocks tile the output, so the array is the whole product.
-/
import proofs.«411250_j36112085025451_1_alg».proof.Proof.Gen.KernelIdeal.Frame
import proofs.«411250_j36112085025451_1_alg».proof.Proof.LibPlainDot
import Idealize.ShloMosaic.Lib.Pipeline.Value
import Idealize.ShloMosaic.Lib.ValueIdx

set_option maxRecDepth 16384

noncomputable section

open scoped BigOperators

namespace Cert.KernelIdeal.RegionZero

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload: the matrix unit into a zero accumulator, the operands rounded to bf16 first, is the product of
    the two loaded blocks on the extended reals. -/
theorem pay_eq (x0 : Vec Ideal S5000x128 .f32) (x1 : Vec Ideal S128x128 .f32) :
    k0_pay1 x0 x1 = LibPlainDot.matProd (M := 5000) (K := 128) (N := 128) x0 x1 := by
  unfold k0_pay1
  exact LibPlainDot.matmul_zero_eq_matProd dot_S5000x128_S128x128_S5000x128_1_0_0_1_n_n rfl rfl rfl rfl rfl rfl none _ _

/-- The whole product of the region's left and right arrays. -/
abbrev prod (c : Dev nD) : S50000x128.Idx → EReal :=
  LibPlainDot.matProd (M := 50000) (K := 128) (N := 128) (V c main_arg0) (V c main_arg2)

/-- The printed index maps, decided over the ten points: the left window and the output move together down the rows,
    at block t; every other block index is 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨e0, e1, e2, e3, e4, e5⟩ := idx_facts t
  funext j
  show LibPlainDot.matProd (M := 5000) (K := 128) (N := 128) (iblk0 V c 0 t) (iblk0 V c 1 t) j
    = prod V c (((cfg0.win 2).blk t).view.emb j)
  unfold prod LibPlainDot.matProd
  refine Finset.sum_congr rfl fun k _ => ?_
  have hj0 : (j 0).val < 5000 := (j 0).isLt
  have hj1 : (j 1).val < 128 := (j 1).isLt
  have hl : iblk0 V c 0 t (ix2 (j 0) k) = V c main_arg0 (ix2 ((((cfg0.win 2).blk t).view.emb j) 0) k) := by
    show V c main_arg0 (((cfg0.win 0).blk t).view.emb (ix2 (j 0) k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : iblk0 V c 1 t (ix2 k (j 1)) = V c main_arg2 (ix2 k ((((cfg0.win 2).blk t).view.emb j) 1)) := by
    show V c main_arg2 (((cfg0.win 1).blk t).view.emb (ix2 k (j 1))) = _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- The ten row blocks tile the output: row r lies in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 5000 < grid0.N := by rw [N_0]; omega
  obtain ⟨e0, e1, e2, e3, e4, e5⟩ := idx_facts ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- THE OUTPUT ARRAY OF THE FIRST CALL: the product of the region's left and right arrays. -/
theorem final (c : Dev nD) : (dat0 V c).arrAt 2 cfg0.N = prod V c :=
  (dat0 V c).arrAt_eq_of_cover 2 (prod V c) (fun t _ => flushed_eq V c t) (cover)

end Cert.KernelIdeal.RegionZero

end
-- ==== Proof.RegionOne.lean ====
/-
  The second pallas_call, read as a value at the ideal instance: its output array ends holding, entry by entry, the
  larger of zero and "the product of the region's first array (50000 × 128) with its second (128 × 128), plus its
  third array (50000 × 128)".

  The grid has ten points. Point t loads rows [5000·t, 5000·t + 5000) of the left array and of the addend, and the
  whole right array; it multiplies on the matrix unit into a zero accumulator (the roundings to bf16 are the identity
  on the extended reals), adds the addend's block, takes the maximum with zero, and writes the block back as rows
  [5000·t, 5000·t + 5000) of the output. The ten row blocks tile the output.
-/
import proofs.«411250_j36112085025451_1_alg».proof.Proof.Gen.KernelIdeal.Frame
import proofs.«411250_j36112085025451_1_alg».proof.Proof.LibPlainDot
import Idealize.ShloMosaic.Lib.Pipeline.Value
import Idealize.ShloMosaic.Lib.ValueIdx

set_option maxRecDepth 16384

noncomputable section

open scoped BigOperators

namespace Cert.KernelIdeal.RegionOne

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry by entry: the larger of the zero word's value and "p plus n". -/
def combine {s : Shape} (p n : s.Idx → EReal) : s.Idx → EReal :=
  fun y => max (p y + n y) (Ideal.ofBits .f32 0x00000000#32)

/-- The body's payload is the combination of the two loaded blocks' product with the addend's block. -/
theorem pay_eq (x0 : Vec Ideal S5000x128 .f32) (x1 : Vec Ideal S128x128 .f32) (x2 : Vec Ideal S5000x128 .f32) :
    k1_pay1 x0 x1 x2 = combine (LibPlainDot.matProd (M := 5000) (K := 128) (N := 128) x0 x1) x2 := by
  have hm := LibPlainDot.matmul_zero_eq_matProd (φ₁ := .bf16) (φ₂ := .bf16) dot_S5000x128_S128x128_S5000x128_1_0_0_1_n_n rfl rfl rfl rfl rfl rfl none x0 x1
  unfold k1_pay1
  dsimp only
  rw [shapeCast_self]
  funext y
  rw [maximumf_apply, addf_apply, broadcast_apply]
  show max (FloatOps.matmul (F := Ideal) dot_S5000x128_S128x128_S5000x128_1_0_0_1_n_n none x0 x1
      (constant ⟨2, ![5000, 128]⟩ .f32 0x00000000#32) y + x2 y) (Ideal.ofBits .f32 0x00000000#32) = _
  rw [hm]
  rfl

/-- The combination of the whole product of the region's left and right arrays with its addend array. -/
abbrev result (c : Dev nD) : S50000x128.Idx → EReal :=
  combine (LibPlainDot.matProd (M := 50000) (K := 128) (N := 128) (V c main_arg0) (V c main_arg1)) (V c main_v8)

/-- The printed index maps, decided over the ten points: the left window, the addend's window and the output move
    together down the rows, at block t; every other block index is 0. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

/-- What point t writes back is block t of the whole result. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz]
  rw [pay_eq]
  obtain ⟨e0, e1, e2, e3, e4, e5, e6, e7⟩ := idx_facts t
  funext j
  show combine (LibPlainDot.matProd (M := 5000) (K := 128) (N := 128) (iblk1 V c 0 t) (iblk1 V c 1 t)) (iblk1 V c 2 t) j
    = result V c (((cfg1.win 3).blk t).view.emb j)
  unfold result combine LibPlainDot.matProd
  have hj0 : (j 0).val < 5000 := (j 0).isLt
  have hj1 : (j 1).val < 128 := (j 1).isLt
  -- the addend's window and the output sit at the same block: their blocks embed alike
  have hn : iblk1 V c 2 t j = V c main_v8 (((cfg1.win 3).blk t).view.emb j) := by
    show V c main_v8 (((cfg1.win 2).blk t).view.emb j) = _
    congr 1
  rw [hn]
  congr 2
  refine Finset.sum_congr rfl fun k _ => ?_
  have hl : iblk1 V c 0 t (ix2 (j 0) k) = V c main_arg0 (ix2 ((((cfg1.win 3).blk t).view.emb j) 0) k) := by
    show V c main_arg0 (((cfg1.win 0).blk t).view.emb (ix2 (j 0) k)) = _
    congr 1
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have hr : iblk1 V c 1 t (ix2 k (j 1)) = V c main_arg1 (ix2 k ((((cfg1.win 3).blk t).view.emb j) 1)) := by
    show V c main_arg1 (((cfg1.win 1).blk t).view.emb (ix2 k (j 1))) = _
    congr 1
    funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  rw [hl, hr]

/-- An index of the output array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v9).slice (win1_3.rect t)).set ↔ _
  rw [View.set_slice_whole, Rect.mem_set_unit]
  exact Iff.rfl

/-- The ten row blocks tile the output: row r lies in the block of point r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 5000 < grid1.N := by rw [N_1]; omega
  obtain ⟨e0, e1, e2, e3, e4, e5, e6, e7⟩ := idx_facts ⟨(i 0).val / 5000, hlt⟩
  have e6' : win1_3.index ⟨(i 0).val / 5000, hlt⟩ (0 : Fin 2) = (i 0).val / 5000 := e6
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

/-- THE OUTPUT ARRAY OF THE SECOND CALL: the combination of the product of the region's left and right arrays with its
    addend array. -/
theorem final (c : Dev nD) : (dat1 V c).arrAt 3 cfg1.N = result V c :=
  (dat1 V c).arrAt_eq_of_cover 3 (result V c) (fun t _ => flushed_eq V c t) (cover)

end Cert.KernelIdeal.RegionOne

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.LibEdgeAggregate.lean ====
/-
  A message-passing aggregation read at one entry of its result, at the ideal instance, generic in the sizes.

  With `M` edges over `N` nodes carrying `C` features each: every edge `e` has a weight, a destination word and a row of `C`
  numbers; the rows, each scaled by its edge's weight, are summed into the destination rows of a zero `N × C` array. Entry
  `(i, k)` of the result is the sum, over the edges whose destination word read signed is `i`, of the weight times the
  row's column `k` (`weightedScatter_apply`). When the rows are gathered out of an `N × C` feature array along a column
  of source words, the row of edge `e` is the feature row at its word read signed and clamped into `[0, N - 1]`
  (`edgeAggregate_apply`). Around them: a vector laid along the rows of a matrix (`broadcastInDim_rows`), the index
  normalisation that adds the extent to a negative word (`wrapCol_apply`: a non-negative word is kept), the range test
  `0 ≤ word ≤ hi` and-reduced along the unit axis (`valid_apply`: a word in range passes), and a take that keeps the
  gathered row where the test passes (`maskedRows_apply`).
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«411250_j36112085025451_1_alg».proof.Proof.LibScatterGather
import proofs.«411250_j36112085025451_1_alg».proof.Proof.LibRowOps

noncomputable section

open scoped BigOperators

namespace Cert.LibEdgeAggregate

open Idealize.ShloMosaic Idealize.ShloMosaic.ValueIdx

/-! ## The weighted rows summed into their destinations -/

/-- THE WEIGHTED SCATTER READ AT `(i, k)`: rows scaled by their edge's weight (the weights as a column spread over the
    `C` columns) and added into a zero array at the rows a column of destination words names. Entry `(i, k)` is the sum,
    over the edges whose destination word read signed is `i`, of the weight times the row's column `k`. -/
theorem weightedScatter_apply {N M C wd : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (hz : (⟨0, ![]⟩ : Shape).BroadcastsInDim ⟨2, ![N, C]⟩ ![])
    (hcol : (⟨1, ![M]⟩ : Shape).BroadcastsInDim ⟨2, ![M, 1]⟩ ![0])
    (hmat : (⟨2, ![M, 1]⟩ : Shape).BroadcastsInDim ⟨2, ![M, C]⟩ ![0, 1])
    (wt : FVec Ideal ⟨1, ![M]⟩ .f32) (dst : IVec ⟨1, ![M]⟩ wd) (rows : FVec Ideal ⟨2, ![M, C]⟩ .f32)
    (i : Fin N) (k : Fin C) :
    Host.scatterAdd d (broadcastInDim ⟨2, ![N, C]⟩ ![] hz (constant (F := Ideal) ⟨0, ![]⟩ .f32 0x00000000#32))
        (broadcastInDim ⟨2, ![M, 1]⟩ ![0] hcol dst)
        (mulf (broadcastInDim ⟨2, ![M, C]⟩ ![0, 1] hmat (broadcastInDim ⟨2, ![M, 1]⟩ ![0] hcol wt)) rows) (ix2 i k)
      = ∑ e : Fin M, if (dst (ix1 e)).toInt = (i.val : ℤ) then wt (ix1 e) * rows (ix2 e k) else 0 := by
  rw [LibScatterGather.scatterAdd_rows_apply d huw hiw hsd hivd, LibRowOps.broadcastInDim_scalar, constant_apply,
    Ideal.ofBits_zero_f32, zero_add]
  refine Finset.sum_congr rfl fun e _ => ?_
  rw [LibRowOps.broadcastInDim_col, mulf_apply, LibRowOps.broadcastInDim_col_mat, LibRowOps.broadcastInDim_col]

/-- THE AGGREGATION READ AT `(i, k)`: the rows are gathered out of a feature array along a column of source words. Entry
    `(i, k)` is the sum, over the edges whose destination word is `i`, of the weight times column `k` of the feature row
    at the source word read signed and clamped into `[0, N - 1]`. -/
theorem edgeAggregate_apply {N M C wd : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (g : GatherDims ⟨2, ![N, C]⟩ ⟨2, ![M, 1]⟩ ⟨2, ![M, C]⟩)
    (hoff : g.offsetDims = [1]) (hcoll : g.collapsedSliceDims = [0]) (hob : g.operandBatchingDims = [])
    (hsb : g.startIndicesBatchingDims = []) (hsim : g.startIndexMap = [0]) (hgivd : g.indexVectorDim = 1)
    (hss : g.sliceSizes = ![1, C])
    (hz : (⟨0, ![]⟩ : Shape).BroadcastsInDim ⟨2, ![N, C]⟩ ![])
    (hcol : (⟨1, ![M]⟩ : Shape).BroadcastsInDim ⟨2, ![M, 1]⟩ ![0])
    (hmat : (⟨2, ![M, 1]⟩ : Shape).BroadcastsInDim ⟨2, ![M, C]⟩ ![0, 1])
    (wt : FVec Ideal ⟨1, ![M]⟩ .f32) (h : FVec Ideal ⟨2, ![N, C]⟩ .f32) (sc : IVec ⟨2, ![M, 1]⟩ wd)
    (dst : IVec ⟨1, ![M]⟩ wd) (hN : 0 < N) (i : Fin N) (k : Fin C) :
    Host.scatterAdd d (broadcastInDim ⟨2, ![N, C]⟩ ![] hz (constant (F := Ideal) ⟨0, ![]⟩ .f32 0x00000000#32))
        (broadcastInDim ⟨2, ![M, 1]⟩ ![0] hcol dst)
        (mulf (broadcastInDim ⟨2, ![M, C]⟩ ![0, 1] hmat (broadcastInDim ⟨2, ![M, 1]⟩ ![0] hcol wt))
          (Host.gather g h sc)) (ix2 i k)
      = ∑ e : Fin M, if (dst (ix1 e)).toInt = (i.val : ℤ)
          then wt (ix1 e) * h (ix2 (⟨min (sc (ix2 e (0 : Fin 1))).toInt.toNat (N - 1), by omega⟩ : Fin N) k) else 0 := by
  rw [weightedScatter_apply d huw hiw hsd hivd hz hcol hmat]
  refine Finset.sum_congr rfl fun e _ => ?_
  rw [LibScatterGather.gather_rows_apply g hoff hcoll hob hsb hsim hgivd hss h sc e k hN]

/-! ## A vector laid along the rows -/

/-- The host's broadcast of a length-R vector along axis 0 of R × C reads, at (b, o), the vector at b. -/
theorem broadcastInDim_rows {R C : Nat} {α : Type} (u : (⟨1, ![R]⟩ : Shape).Idx → α)
    (h : (⟨1, ![R]⟩ : Shape).BroadcastsInDim ⟨2, ![R, C]⟩ ![0]) (b : Fin R) (o : Fin C) :
    broadcastInDim ⟨2, ![R, C]⟩ ![0] h u (ix2 b o) = u (ix1 b) := by
  refine broadcastInDim_apply _ h u (ix2 b o) (ix1 b) fun a => ?_
  match a with
  | ⟨0, _⟩ =>
    show b.val = if R = 1 then 0 else b.val
    split
    · have := b.isLt; omega
    · rfl

/-! ## The index normalisation, the range test and the masked take, at a word in range -/

/-- A word that is not negative is not below the zero word, signed. -/
theorem slt_zero_of_nonneg (x : BitVec 32) (h0 : 0 ≤ x.toInt) : IntOp.cmpi .slt x 0#32 = 0#1 := by
  have hlt : ¬ (x.toInt < (0#32 : BitVec 32).toInt) := by
    rw [show (0#32 : BitVec 32).toInt = 0 from rfl]; omega
  show BitVec.ofBool (decide (x.toInt < (0#32 : BitVec 32).toInt)) = 0#1
  rw [decide_eq_false hlt]
  rfl

/-- THE INDEX NORMALISATION AT A NON-NEGATIVE WORD: "where the word is negative, the word plus the extent, else the word",
    laid out as a column, keeps a word that is not negative. -/
theorem wrapCol_apply {M : Nat} (n : BitVec 32)
    (hb : (⟨0, ![]⟩ : Shape).BroadcastsInDim ⟨1, ![M]⟩ ![])
    (hcol : (⟨1, ![M]⟩ : Shape).BroadcastsInDim ⟨2, ![M, 1]⟩ ![0])
    (idx : IVec ⟨1, ![M]⟩ 32) (e : Fin M) (z : Fin 1) (h0 : 0 ≤ (idx (ix1 e)).toInt) :
    broadcastInDim ⟨2, ![M, 1]⟩ ![0] hcol
        (select (cmpi .slt idx (broadcastInDim ⟨1, ![M]⟩ ![] hb (constantI ⟨0, ![]⟩ 32 0#32)))
          (addi idx (broadcastInDim ⟨1, ![M]⟩ ![] hb (constantI ⟨0, ![]⟩ 32 n))) idx) (ix2 e z)
      = idx (ix1 e) := by
  rw [LibRowOps.broadcastInDim_col, select_apply]
  have hc : cmpi .slt idx (broadcastInDim ⟨1, ![M]⟩ ![] hb (constantI ⟨0, ![]⟩ 32 0#32)) (ix1 e) = 0#1 :=
    slt_zero_of_nonneg (idx (ix1 e)) h0
  rw [hc, select_zero]

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A word between zero and `hi`, signed, passes both comparisons. -/
theorem range_bits (x hi : BitVec 32) (h0 : 0 ≤ x.toInt) (h1 : x.toInt ≤ hi.toInt) :
    IntOp.andi (IntOp.cmpi .sge x 0#32) (IntOp.cmpi .sle x hi) = 1#1 := by
  have ha : IntOp.cmpi .sge x 0#32 = 1#1 := by
    show BitVec.ofBool (decide ((0#32 : BitVec 32).toInt ≤ x.toInt)) = 1#1
    rw [decide_eq_true (by rw [show (0#32 : BitVec 32).toInt = 0 from rfl]; exact h0)]
    rfl
  have hb : IntOp.cmpi .sle x hi = 1#1 := by
    show BitVec.ofBool (decide (x.toInt ≤ hi.toInt)) = 1#1
    rw [decide_eq_true h1]
    rfl
  rw [ha, hb]
  decide

/-- THE RANGE TEST AT A WORD IN RANGE: "zero ≤ word and word ≤ hi" on a column of words, and-reduced along the unit
    axis from 1, is 1 at an edge whose word lies between zero and `hi`. -/
theorem valid_apply {M : Nat} {u : Shape} (hi : BitVec 32)
    (hb0 : (⟨0, ![]⟩ : Shape).BroadcastsInDim ⟨2, ![M, 1]⟩ ![])
    (hb1 : (⟨1, ![1]⟩ : Shape).BroadcastsInDim ⟨2, ![1, 1]⟩ ![1])
    (hb2 : (⟨2, ![1, 1]⟩ : Shape).BroadcastsInDim ⟨2, ![M, 1]⟩ ![0, 1])
    (hr : (⟨2, ![M, 1]⟩ : Shape).ReducesTo [1] ⟨1, ![M]⟩) (hu : 0 < u.numel)
    (c : IVec ⟨2, ![M, 1]⟩ 32) (e : Fin M)
    (h0 : 0 ≤ (c (ix2 e (0 : Fin 1))).toInt) (h1 : (c (ix2 e (0 : Fin 1))).toInt ≤ hi.toInt) :
    Host.reduce IntOp.andi
        (andi (cmpi .sge c (broadcastInDim ⟨2, ![M, 1]⟩ ![] hb0 (constantI ⟨0, ![]⟩ 32 0#32)))
          (cmpi .sle c (broadcastInDim ⟨2, ![M, 1]⟩ ![0, 1] hb2
            (broadcastInDim ⟨2, ![1, 1]⟩ ![1] hb1 (constantI ⟨1, ![1]⟩ 32 hi)))))
        (constantI u 1 1#1) hr hu (ix1 e) = 1#1 := by
  rw [Host.reduce_eq_foldl]
  refine foldl_andi_one _ _ fun i hi' => ?_
  have hd : hr.drop i = ix1 e := of_decide_eq_true (List.mem_filter.1 hi').2
  -- the one index that drops to edge `e` is `(e, 0)`
  have hv : (hr.drop i 0 : Nat) = i 0 := Shape.ReducesTo.drop_apply_val hr i 0
  have hi0 : i = ix2 e (0 : Fin 1) := by
    funext a
    match a with
    | ⟨0, _⟩ =>
      have he : (hr.drop i 0 : Nat) = e.val := congrArg (fun j : (⟨1, ![M]⟩ : Shape).Idx => (j 0).val) hd
      exact Fin.ext (show (i 0).val = e.val by rw [← hv, he])
    | ⟨1, _⟩ => exact Fin.ext (show (i 1).val = 0 by have := idx2_lt1 i; omega)
  rw [hi0]
  exact range_bits (c (ix2 e (0 : Fin 1))) hi h0 h1

/-- THE MASKED TAKE AT A VALID EDGE: rows kept where a per-edge bit, laid along the rows, is 1 and replaced by a fill
    elsewhere read, at an edge whose bit is 1, the row itself. -/
theorem maskedRows_apply {M C : Nat} {α : Type} (hbm : (⟨1, ![M]⟩ : Shape).BroadcastsInDim ⟨2, ![M, C]⟩ ![0])
    (valid : IVec ⟨1, ![M]⟩ 1) (rows fill : (⟨2, ![M, C]⟩ : Shape).Idx → α) (e : Fin M) (k : Fin C)
    (hv : valid (ix1 e) = 1#1) :
    select (broadcastInDim ⟨2, ![M, C]⟩ ![0] hbm valid) rows fill (ix2 e k) = rows (ix2 e k) := by
  rw [select_apply, broadcastInDim_rows, hv, select_one]

end Cert.LibEdgeAggregate

end
-- ==== Proof.LibTakeWrap.lean ====
/-
  A row take with a fill for out-of-range words, at source words inside the numpy range [-n, n), generic in the sizes.

  The take first normalises each source word ("where the word is negative, the word plus the extent n, else the word"),
  then tests the normalised word against 0 ≤ word ≤ hi and keeps the gathered row where the test passes, a fill row
  elsewhere. For a word w with -n ≤ w < n the normalised word lies in [0, n): a non-negative word is kept, and a
  negative one becomes w + n without wrapping around the 32-bit range (`wrapCol_range`). With hi = n - 1 the test then
  passes at every edge (`valid_all`), so the kept rows are ALL the rows: the masked array is the gathered array itself,
  whatever the fill (`masked_eq_rows`, `take_eq_rows`).
-/
import Idealize.ShloMosaic.PureOps.Ideal
import Idealize.ShloMosaic.Lib.ValueIdx
import Idealize.ShloMosaic.Lib.Pipeline.Value
import proofs.«411250_j36112085025451_1_alg».proof.Proof.LibRowOps
import proofs.«411250_j36112085025451_1_alg».proof.Proof.LibEdgeAggregate

noncomputable section

namespace Cert.LibTakeWrap

open Idealize.ShloMosaic Idealize.ShloMosaic.ValueIdx

/-- A negative word is below the zero word, signed. -/
theorem slt_zero_of_neg (x : BitVec 32) (h : x.toInt < 0) : IntOp.cmpi .slt x 0#32 = 1#1 := by
  have hlt : x.toInt < (0#32 : BitVec 32).toInt := by
    rw [show (0#32 : BitVec 32).toInt = 0 from rfl]; exact h
  show BitVec.ofBool (decide (x.toInt < (0#32 : BitVec 32).toInt)) = 1#1
  rw [decide_eq_true hlt]
  rfl

/-- Adding the extent n to a word in [-n, 0) does not wrap around: the sum read signed is the sum of the two. -/
theorem toInt_add_extent (x n : BitVec 32) (hlo : -n.toInt ≤ x.toInt) (hneg : x.toInt < 0) :
    (x + n).toInt = x.toInt + n.toInt := by
  rw [BitVec.toInt_add]
  have hn1 : n.toInt < 2 ^ (32 - 1) := BitVec.toInt_lt
  have hx1 : -(2 : ℤ) ^ (32 - 1) ≤ x.toInt := BitVec.le_toInt x
  have hq : (2 : ℤ) ^ (32 - 1) = 2147483648 := by norm_num
  have hp : ((2 ^ 32 : ℕ) : ℤ) = 4294967296 := by norm_num
  rw [hq] at hn1 hx1
  refine Int.bmod_eq_of_le ?_ ?_
  · rw [hp]; omega
  · rw [hp]; omega

/-- THE INDEX NORMALISATION AT A WORD IN [-n, n): "where the word is negative, the word plus the extent, else the
    word", laid out as a column, lands in [0, n). -/
theorem wrapCol_range {M : Nat} (n : BitVec 32)
    (hb : (⟨0, ![]⟩ : Shape).BroadcastsInDim ⟨1, ![M]⟩ ![])
    (hcol : (⟨1, ![M]⟩ : Shape).BroadcastsInDim ⟨2, ![M, 1]⟩ ![0])
    (idx : IVec ⟨1, ![M]⟩ 32) (e : Fin M) (z : Fin 1)
    (hlo : -n.toInt ≤ (idx (ix1 e)).toInt) (hhi : (idx (ix1 e)).toInt < n.toInt) :
    0 ≤ (broadcastInDim ⟨2, ![M, 1]⟩ ![0] hcol
        (select (cmpi .slt idx (broadcastInDim ⟨1, ![M]⟩ ![] hb (constantI ⟨0, ![]⟩ 32 0#32)))
          (addi idx (broadcastInDim ⟨1, ![M]⟩ ![] hb (constantI ⟨0, ![]⟩ 32 n))) idx) (ix2 e z)).toInt
    ∧ (broadcastInDim ⟨2, ![M, 1]⟩ ![0] hcol
        (select (cmpi .slt idx (broadcastInDim ⟨1, ![M]⟩ ![] hb (constantI ⟨0, ![]⟩ 32 0#32)))
          (addi idx (broadcastInDim ⟨1, ![M]⟩ ![] hb (constantI ⟨0, ![]⟩ 32 n))) idx) (ix2 e z)).toInt < n.toInt := by
  by_cases h0 : 0 ≤ (idx (ix1 e)).toInt
  · rw [LibEdgeAggregate.wrapCol_apply n hb hcol idx e z h0]
    exact ⟨h0, hhi⟩
  · have hneg : (idx (ix1 e)).toInt < 0 := by omega
    rw [LibRowOps.broadcastInDim_col, select_apply]
    have hc : cmpi .slt idx (broadcastInDim ⟨1, ![M]⟩ ![] hb (constantI ⟨0, ![]⟩ 32 0#32)) (ix1 e) = 1#1 :=
      slt_zero_of_neg (idx (ix1 e)) hneg
    rw [hc, select_one]
    have ha : addi idx (broadcastInDim ⟨1, ![M]⟩ ![] hb (constantI ⟨0, ![]⟩ 32 n)) (ix1 e) = idx (ix1 e) + n := rfl
    rw [ha, toInt_add_extent (idx (ix1 e)) n hlo hneg]
    omega

/-- THE RANGE TEST PASSES AT EVERY EDGE: with every source word in [-n, n) and the upper bound hi at least n - 1, the
    test "0 ≤ normalised word ≤ hi", and-reduced along the unit axis, is 1 at every edge. -/
theorem valid_all {M : Nat} {u : Shape} (n hi : BitVec 32) (hnhi : n.toInt ≤ hi.toInt + 1)
    (hb : (⟨0, ![]⟩ : Shape).BroadcastsInDim ⟨1, ![M]⟩ ![])
    (hcol : (⟨1, ![M]⟩ : Shape).BroadcastsInDim ⟨2, ![M, 1]⟩ ![0])
    (hb0 : (⟨0, ![]⟩ : Shape).BroadcastsInDim ⟨2, ![M, 1]⟩ ![])
    (hb1 : (⟨1, ![1]⟩ : Shape).BroadcastsInDim ⟨2, ![1, 1]⟩ ![1])
    (hb2 : (⟨2, ![1, 1]⟩ : Shape).BroadcastsInDim ⟨2, ![M, 1]⟩ ![0, 1])
    (hr : (⟨2, ![M, 1]⟩ : Shape).ReducesTo [1] ⟨1, ![M]⟩) (hu : 0 < u.numel)
    (idx : IVec ⟨1, ![M]⟩ 32)
    (hidx : ∀ e : Fin M, -n.toInt ≤ (idx (ix1 e)).toInt ∧ (idx (ix1 e)).toInt < n.toInt) (e : Fin M) :
    Host.reduce IntOp.andi
        (andi (cmpi .sge (broadcastInDim ⟨2, ![M, 1]⟩ ![0] hcol
              (select (cmpi .slt idx (broadcastInDim ⟨1, ![M]⟩ ![] hb (constantI ⟨0, ![]⟩ 32 0#32)))
                (addi idx (broadcastInDim ⟨1, ![M]⟩ ![] hb (constantI ⟨0, ![]⟩ 32 n))) idx))
            (broadcastInDim ⟨2, ![M, 1]⟩ ![] hb0 (constantI ⟨0, ![]⟩ 32 0#32)))
          (cmpi .sle (broadcastInDim ⟨2, ![M, 1]⟩ ![0] hcol
              (select (cmpi .slt idx (broadcastInDim ⟨1, ![M]⟩ ![] hb (constantI ⟨0, ![]⟩ 32 0#32)))
                (addi idx (broadcastInDim ⟨1, ![M]⟩ ![] hb (constantI ⟨0, ![]⟩ 32 n))) idx))
            (broadcastInDim ⟨2, ![M, 1]⟩ ![0, 1] hb2
              (broadcastInDim ⟨2, ![1, 1]⟩ ![1] hb1 (constantI ⟨1, ![1]⟩ 32 hi)))))
        (constantI u 1 1#1) hr hu (ix1 e) = 1#1 := by
  obtain ⟨h0, h1⟩ := wrapCol_range n hb hcol idx e (0 : Fin 1) (hidx e).1 (hidx e).2
  exact LibEdgeAggregate.valid_apply hi hb0 hb1 hb2 hr hu _ e h0 (by omega)

/-- Rows kept where a per-edge bit is 1 and replaced by a fill elsewhere, when every edge's bit is 1, are the rows. -/
theorem masked_eq_rows {M C : Nat} {α : Type} (hbm : (⟨1, ![M]⟩ : Shape).BroadcastsInDim ⟨2, ![M, C]⟩ ![0])
    (valid : IVec ⟨1, ![M]⟩ 1) (rows fill : (⟨2, ![M, C]⟩ : Shape).Idx → α)
    (hv : ∀ e : Fin M, valid (ix1 e) = 1#1) :
    select (broadcastInDim ⟨2, ![M, C]⟩ ![0] hbm valid) rows fill = rows := by
  funext y
  obtain ⟨e, k, rfl⟩ : ∃ (e : Fin M) (k : Fin C), y = ix2 e k := ⟨y 0, y 1, eq_ix2 y⟩
  exact LibEdgeAggregate.maskedRows_apply hbm valid rows fill e k (hv e)

/-- THE TAKE AT SOURCE WORDS IN [-n, n) IS THE ROWS THEMSELVES: the range test of the normalised words, laid along the
    rows, keeps every row, so the fill is never read. -/
theorem take_eq_rows {M C : Nat} {u : Shape} {α : Type} (n hi : BitVec 32) (hnhi : n.toInt ≤ hi.toInt + 1)
    (hb : (⟨0, ![]⟩ : Shape).BroadcastsInDim ⟨1, ![M]⟩ ![])
    (hcol : (⟨1, ![M]⟩ : Shape).BroadcastsInDim ⟨2, ![M, 1]⟩ ![0])
    (hb0 : (⟨0, ![]⟩ : Shape).BroadcastsInDim ⟨2, ![M, 1]⟩ ![])
    (hb1 : (⟨1, ![1]⟩ : Shape).BroadcastsInDim ⟨2, ![1, 1]⟩ ![1])
    (hb2 : (⟨2, ![1, 1]⟩ : Shape).BroadcastsInDim ⟨2, ![M, 1]⟩ ![0, 1])
    (hr : (⟨2, ![M, 1]⟩ : Shape).ReducesTo [1] ⟨1, ![M]⟩) (hu : 0 < u.numel)
    (hbm : (⟨1, ![M]⟩ : Shape).BroadcastsInDim ⟨2, ![M, C]⟩ ![0])
    (idx : IVec ⟨1, ![M]⟩ 32)
    (hidx : ∀ e : Fin M, -n.toInt ≤ (idx (ix1 e)).toInt ∧ (idx (ix1 e)).toInt < n.toInt)
    (rows fill : (⟨2, ![M, C]⟩ : Shape).Idx → α) :
    select (broadcastInDim ⟨2, ![M, C]⟩ ![0] hbm
        (Host.reduce IntOp.andi
          (andi (cmpi .sge (broadcastInDim ⟨2, ![M, 1]⟩ ![0] hcol
                (select (cmpi .slt idx (broadcastInDim ⟨1, ![M]⟩ ![] hb (constantI ⟨0, ![]⟩ 32 0#32)))
                  (addi idx (broadcastInDim ⟨1, ![M]⟩ ![] hb (constantI ⟨0, ![]⟩ 32 n))) idx))
              (broadcastInDim ⟨2, ![M, 1]⟩ ![] hb0 (constantI ⟨0, ![]⟩ 32 0#32)))
            (cmpi .sle (broadcastInDim ⟨2, ![M, 1]⟩ ![0] hcol
                (select (cmpi .slt idx (broadcastInDim ⟨1, ![M]⟩ ![] hb (constantI ⟨0, ![]⟩ 32 0#32)))
                  (addi idx (broadcastInDim ⟨1, ![M]⟩ ![] hb (constantI ⟨0, ![]⟩ 32 n))) idx))
              (broadcastInDim ⟨2, ![M, 1]⟩ ![0, 1] hb2
                (broadcastInDim ⟨2, ![1, 1]⟩ ![1] hb1 (constantI ⟨1, ![1]⟩ 32 hi)))))
          (constantI u 1 1#1) hr hu)) rows fill = rows :=
  masked_eq_rows hbm _ rows fill fun e => valid_all n hi hnhi hb hcol hb0 hb1 hb2 hr hu idx hidx e

end Cert.LibTakeWrap

end
-- ==== Proof.Bridge.lean ====
/-
  The two programs compute one function of the arguments, at the ideal instance, when every source word lies in
  [-50000, 50000).

  THE KERNEL. Its result is the second call's output: entry by entry the larger of zero and "x·W plus the neighbour
  sums", where the neighbour sums are the rows of the first call's output x·M taken at the edges' source words — each
  word normalised, tested against 0 ≤ word ≤ 49999, the row replaced by a fill where the test fails — and summed into
  the rows the destination words name. With the source words in [-50000, 50000) the test passes at every edge, so the
  fill is never read and the taken rows are the gathered rows themselves.

  THE REFERENCE. It gathers the rows of x·M at the same normalised words with no test, sums them into the same
  destinations by the same scatter, adds x·W and takes the maximum with zero.

  Both matrix products are, entry by entry, the same sum over k on the extended reals; the gather, the scatter-add and
  the index arithmetic are the same operations on both sides and are never opened.
-/
import proofs.«411250_j36112085025451_1_alg».proof.Proof.Gen.ReferenceIdeal.Run
import proofs.«411250_j36112085025451_1_alg».proof.Proof.Between
import proofs.«411250_j36112085025451_1_alg».proof.Proof.RegionZero
import proofs.«411250_j36112085025451_1_alg».proof.Proof.RegionOne
import proofs.«411250_j36112085025451_1_alg».proof.Proof.LibTakeWrap
import proofs.«411250_j36112085025451_1_alg».proof.Proof.LibPlainDot

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Between

/-- The result both programs compute, from the argument arrays: x·W plus the gathered rows of x·M summed into their
    destinations, the larger of that and zero. -/
def spec (x : FVec Ideal S50000x128 .f32) (W M : FVec Ideal S128x128 .f32) (edges : IVec S2x800000 32) :
    FVec Ideal S50000x128 .f32 :=
  RegionOne.combine (LibPlainDot.matProd (M := 50000) (K := 128) (N := 128) x W)
    (sumInto (F := Ideal) (Host.gather gather_S50000x128_S800000x1_S800000x128_1_0_n_n_0_1_1128
        (LibPlainDot.matProd (M := 50000) (K := 128) (N := 128) x M) (wrapCol (srcWords edges)))
      (dstWords edges))

/-! ## The kernel -/

/-- With every source word in [-50000, 50000) the take keeps every gathered row. -/
theorem takenRows_eq (xm : FVec Ideal S50000x128 .f32) (s : IVec S800000 32)
    (hs : ∀ e : Fin 800000, -(50000#32 : BitVec 32).toInt ≤ (s (ix1 e)).toInt ∧ (s (ix1 e)).toInt < (50000#32 : BitVec 32).toInt) :
    takenRows xm s = Host.gather gather_S50000x128_S800000x1_S800000x128_1_0_n_n_0_1_1128 xm (wrapCol s) :=
  LibTakeWrap.take_eq_rows (M := 800000) (C := 128) 50000#32 49999#32 (by decide) bcast_S_S800000 bcast_S800000_S800000x1_0
    bcast_S_S800000x1 bcast_S1_S1x1_1 bcast_S1x1_S800000x1_0_1 reducesTo_S800000x1_S800000_d1 h_S_
    bcast_S800000_S800000x128_0 s hs _ _

variable (m : (ℓ : Loc nD τ sig) → Buf (Elt Ideal) ℓ) (ρ : Dev nD → PrngReg)

/-- The kernel's result buffer after the run, through the fold of the two calls and the host stretches. -/
theorem kernel_value (c : Dev nD)
    (hs : ∀ e : Fin 800000, -(50000#32 : BitVec 32).toInt ≤ (srcWords (m ((c : Thread nD τ).loc main_arg3)) (ix1 e)).toInt
      ∧ (srcWords (m ((c : Thread nD τ).loc main_arg3)) (ix1 e)).toInt < (50000#32 : BitVec 32).toInt) :
    W5 m ρ c (Proc.devRef .tc main_v9)
      = spec (m ((c : Thread nD τ).loc main_arg0)) (m ((c : Thread nD τ).loc main_arg1))
          (m ((c : Thread nD τ).loc main_arg2)) (m ((c : Thread nD τ).loc main_arg3)) := by
  rw [W5_v9, RegionOne.final]
  unfold RegionOne.result
  rw [V4_arg0, V4_arg1, V4_v8, V2_v4, RegionZero.final, V2_v1, V2_v3]
  unfold RegionZero.prod
  rw [V1_arg0, V1_arg2]
  unfold neigh
  rw [takenRows_eq _ _ hs]
  rfl

end Cert.Bridge

/-! ## The reference -/

namespace Cert.BridgeRef

open Idealize.ShloMosaic Idealize.ShloMosaic.TcCoe Idealize.SL.Sem Idealize.ShloMosaic.ValueIdx
open Cert.ReferenceIdeal Cert.ReferenceIdeal.Gen

/-- The reference's scatter and gather are the kernel program's: the same dimension numbers. -/
theorem scatter_eq : scatter_S50000x128_S800000x1_S800000x128_1_0_0_1
    = Cert.KernelIdeal.scatter_S50000x128_S800000x1_S800000x128_1_0_0_1 := rfl
theorem gather_eq : gather_S50000x128_S800000x1_S800000x128_1_0_n_n_0_1_1128
    = Cert.KernelIdeal.gather_S50000x128_S800000x1_S800000x128_1_0_n_n_0_1_1128 := rfl

/-- The reference run's result term is the common function of the arguments. -/
theorem ref_value (x : FVec Ideal S50000x128 .f32) (W M : FVec Ideal S128x128 .f32) (edges : IVec S2x800000 32) :
    maximumf (addf (Host.dotGeneral dot_S50000x128_S128x128_S50000x128_1_0_0_1_n_n none x W) (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] edges slices_S2x800000_S1x800000_1_0) shapeCasts_S1x800000_S800000)) (Host.gather gather_S50000x128_S800000x1_S800000x128_1_0_n_n_0_1_1128 (Host.dotGeneral dot_S50000x128_S128x128_S50000x128_1_0_0_1_n_n none x M) (broadcastInDim S800000x1 ![0] bcast_S800000_S800000x1_0 (select (cmpi .slt (shapeCast _ (extractStridedSlice S1x800000 ![0, 0] edges slices_S2x800000_S1x800000_0_0) shapeCasts_S1x800000_S800000) (broadcastInDim S800000 ![] bcast_S_S800000 (constantI S_ 32 0#32))) (addi (shapeCast _ (extractStridedSlice S1x800000 ![0, 0] edges slices_S2x800000_S1x800000_0_0) shapeCasts_S1x800000_S800000) (broadcastInDim S800000 ![] bcast_S_S800000 (constantI S_ 32 50000#32))) (shapeCast _ (extractStridedSlice S1x800000 ![0, 0] edges slices_S2x800000_S1x800000_0_0) shapeCasts_S1x800000_S800000)))))) (broadcastInDim S50000x128 ![] bcast_S_S50000x128 (constant S_ .f32 0x00000000#32))
      = Cert.Bridge.spec x W M edges := by
  have h1 := LibPlainDot.dotGeneral_eq_matProd (φ₁ := .f32) (φ₂ := .f32) dot_S50000x128_S128x128_S50000x128_1_0_0_1_n_n
    rfl rfl rfl rfl rfl rfl none .single x W
  have h2 := LibPlainDot.dotGeneral_eq_matProd (φ₁ := .f32) (φ₂ := .f32) dot_S50000x128_S128x128_S50000x128_1_0_0_1_n_n
    rfl rfl rfl rfl rfl rfl none .single x M
  simp only [Host.dotGeneral]
  rw [h1, h2, scatter_eq, gather_eq]
  rfl

end Cert.BridgeRef

end
-- ==== Proof.lean ====
/-
  The certificate of a graph-aggregation kernel against its jnp reference, over the extended reals.

  Per node i the result is relu(xᵢ·W + ∑ over the edges into i of x_src·M). The kernel computes x·M and the final
  "x·W + neighbour sums, then the maximum with zero" in two pallas_calls (each ten row blocks of 5000 × 128, the
  matrix products on the matrix unit from operands rounded to bf16, which is the identity on the extended reals), and the
  gather of the rows of x·M at the edges' source words and their scatter-add into the destination rows on the host
  between the two calls. The reference does the same with two whole matrix products.

  The one difference is how a source word outside the 50000 rows is read: the kernel's take replaces the row by a fill,
  the reference's bare gather clamps the word. The precondition keeps every source word in [-50000, 50000) — the range
  in which the reference's own indexing is an index into the rows (a negative word counts from the end, and both
  programs add 50000 to it) — and there the take's range test passes at every edge, so both programs gather the same
  rows. The frames are the generated ones; the kernel's result is read through the fold of the two calls and the host
  stretches (Proof/Between, Proof/RegionZero, Proof/RegionOne), the reference's through its generated run, and the two
  are one function of the arguments (Proof/Bridge). No finiteness is needed: both sides are the same sums and products.
-/
import proofs.«411250_j36112085025451_1_alg».proof.Defs
import proofs.«411250_j36112085025451_1_alg».proof.Proof.Gen.Kernel
import proofs.«411250_j36112085025451_1_alg».proof.Proof.Gen.Kernel.Skeleton
import proofs.«411250_j36112085025451_1_alg».proof.Proof.Gen.Kernel.Launch
import proofs.«411250_j36112085025451_1_alg».proof.Proof.Gen.Kernel.Points
import proofs.«411250_j36112085025451_1_alg».proof.Proof.Gen.Kernel.Frame
import proofs.«411250_j36112085025451_1_alg».proof.Proof.Gen.KernelIdeal
import proofs.«411250_j36112085025451_1_alg».proof.Proof.Gen.KernelIdeal.Skeleton
import proofs.«411250_j36112085025451_1_alg».proof.Proof.Gen.KernelIdeal.Launch
import proofs.«411250_j36112085025451_1_alg».proof.Proof.Gen.KernelIdeal.Points
import proofs.«411250_j36112085025451_1_alg».proof.Proof.Gen.KernelIdeal.Frame
import proofs.«411250_j36112085025451_1_alg».proof.Proof.Gen.ReferenceIdeal
import proofs.«411250_j36112085025451_1_alg».proof.Proof.Gen.Pre_finite_inputs
import proofs.«411250_j36112085025451_1_alg».proof.Proof.Gen.ReferenceIdeal.Run
import proofs.«411250_j36112085025451_1_alg».proof.Proof.KernelRun
import proofs.«411250_j36112085025451_1_alg».proof.Proof.Pre
import proofs.«411250_j36112085025451_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories that agree on the arguments, with the result at the common function of the
    arguments: the kernel by its run read through the fold, the reference by its generated run. -/
theorem algebraic : Cert.algebraic_KernelIdeal_ReferenceIdeal := by
  intro m ρ m' ρ' hpre hagree
  refine ⟨fun c => Cert.Bridge.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Bridge.kernel_value m ρ c
          (fun e => Cert.PreRead.src_range _ _ _ _ (hpre c) _ _ e)), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact Cert.BridgeRef.ref_value _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
